-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_scale" .f32 0x3DB504F3#32 ((1048576 / 11863283 : ℝ) : EReal)
  ∧ IdealRules.truncf_extf.Statement Cert.KernelIdeal.S1024x128 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) (main_arg1 : FVec F S32x2048x128 .f32) (main_arg2 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  main_v13
-- ==== Kernel.lean ====
abbrev S32x2048x128 : Shape := ⟨3, ![32, 2048, 128]⟩
abbrev S32x2048x2048 : Shape := ⟨3, ![32, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x128, .f32⟩
  | .hbm, ⟨4, _⟩ => ⟨S32x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x2048, .f32⟩
  | .local _ .vmem, ⟨9, _⟩ => ⟨S1x1024x2048, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.Spec.lean ====
/-
  Scaled dot-product attention over f32[32, 2048, 128] queries, keys and values, as functions on the extended reals.

  For one batch `b` and one query row `i` the scores against the key rows are `s j = (∑ d, q d * k j d) / D`; the
  attention weights are the softmax of the scores, `exp (s j - max s) / ∑ j', exp (s j' - max s)`, and the output row
  is the weights' combination of the value rows. Two spellings of each quantity are stated here, and the module
  `Algebra` shows that they agree on finite inputs:

  * the quotient form: the dot product divided by the scale `D`, the exponentials divided by their sum;
  * the product form: the query multiplied by `1 / D` before the dot product, the dot product taken as a leading
    product plus two residual products whose one factor is a difference `x - x`, and the exponentials (and their
    combination of the value rows) multiplied by the reciprocal of their sum.
-/
import Idealize.ShloMosaic.PureOps.Ideal
import Idealize.ShloMosaic.Lib.ValueIdx

noncomputable section

namespace Cert.Attention

open Idealize.ShloMosaic Idealize.ShloMosaic.ValueIdx

/-- The scale `D`: the binary value of the f32 nearest to `√128`. -/
def scaleD : EReal := ((11863283 / 1048576 : ℝ) : EReal)

/-- Its reciprocal `1 / D`. -/
def invD : EReal := ((1048576 / 11863283 : ℝ) : EReal)

section Rows

variable {ι κ : Type} [Fintype ι] [Fintype κ]

/-- Scores of one query row in the product form: the row times `c`, dotted with key row `j`, plus the two residual
    products of a split of each operand into a leading part and a remainder `x - x`. -/
def scoresSplit (c : EReal) (q : ι → EReal) (k : κ → ι → EReal) (j : κ) : EReal :=
  (∑ d, (q d * c) * k j d + ∑ d, (q d * c) * (k j d - k j d)) + ∑ d, (q d * c - q d * c) * k j d

/-- Scores of one query row in the quotient form: the dot product with key row `j`, divided by `D`. -/
def scoresDiv (D : EReal) (q : ι → EReal) (k : κ → ι → EReal) (j : κ) : EReal :=
  Ideal.div (∑ d, q d * k j d) D

/-- The largest score of a row (from `-∞`). -/
def rowMax (s : κ → EReal) : EReal := (Finset.univ : Finset κ).fold max ⊥ s

/-- The exponential of a score less the row's largest. -/
def expShift (s : κ → EReal) (j : κ) : EReal := Ideal.exp (s j - rowMax s)

/-- The sum of a row's shifted exponentials. -/
def expSum (s : κ → EReal) : EReal := ∑ j, expShift s j

/-- A softmax weight in the product form: the shifted exponential times the reciprocal of the row's sum. -/
def weightMul (s : κ → EReal) (j : κ) : EReal := expShift s j * Ideal.div 1 (expSum s)

/-- An output entry in the product form: the exponentials' combination of a value column, times the reciprocal of the
    row's sum. -/
def outMul (s : κ → EReal) (v : κ → EReal) : EReal := (∑ j, expShift s j * v j) * Ideal.div 1 (expSum s)

/-- A softmax weight in the quotient form. -/
def weightDiv (s : κ → EReal) (j : κ) : EReal := Ideal.div (expShift s j) (expSum s)

/-- An output entry in the quotient form: the weights' combination of a value column. -/
def outDiv (s : κ → EReal) (v : κ → EReal) : EReal := ∑ j, weightDiv s j * v j

end Rows

/-- The shape of the queries, keys, values and of the output. -/
abbrev Sqkv : Shape := ⟨3, ![32, 2048, 128]⟩
/-- The shape of the attention weights. -/
abbrev Swts : Shape := ⟨3, ![32, 2048, 2048]⟩

/-- Row `i` of batch `b` of the queries. -/
def qRow (q : Sqkv.Idx → EReal) (b : Fin 32) (i : Fin 2048) : Fin 128 → EReal := fun d => q (ix3 b i d)
/-- The key rows of batch `b`. -/
def kRows (k : Sqkv.Idx → EReal) (b : Fin 32) : Fin 2048 → Fin 128 → EReal := fun j d => k (ix3 b j d)
/-- Column `e` of batch `b` of the values. -/
def vCol (v : Sqkv.Idx → EReal) (b : Fin 32) (e : Fin 128) : Fin 2048 → EReal := fun j => v (ix3 b j e)

/-- The attention weights, quotient form. -/
def weightsDiv (q k : Sqkv.Idx → EReal) : Swts.Idx → EReal := fun x =>
  weightDiv (scoresDiv scaleD (qRow q (x 0) (x 1)) (kRows k (x 0))) (x 2)
/-- The attention output, quotient form. -/
def outputDiv (q k v : Sqkv.Idx → EReal) : Sqkv.Idx → EReal := fun x =>
  outDiv (scoresDiv scaleD (qRow q (x 0) (x 1)) (kRows k (x 0))) (vCol v (x 0) (x 2))
/-- The attention weights, product form. -/
def weightsMul (q k : Sqkv.Idx → EReal) : Swts.Idx → EReal := fun x =>
  weightMul (scoresSplit invD (qRow q (x 0) (x 1)) (kRows k (x 0))) (x 2)
/-- The attention output, product form. -/
def outputMul (q k v : Sqkv.Idx → EReal) : Sqkv.Idx → EReal := fun x =>
  outMul (scoresSplit invD (qRow q (x 0) (x 1)) (kRows k (x 0))) (vCol v (x 0) (x 2))

end Cert.Attention

end
-- ==== Proof.Algebra.lean ====
/-
  On finite inputs the product form of attention (Spec) is its quotient form.

  All entries being real numbers, every quantity of a row is a real number and the comparison is real algebra:
  * a difference `x - x` is `0`, so the two residual products of the split dot product vanish, and
    `∑ d, (q d * (1 / D)) * k d = (∑ d, q d * k d) / D`: the scores agree;
  * the largest of finitely many (at least one) real scores is a real number, so every shifted exponential is a
    positive real and so is their sum `L`; dividing by `L` is multiplying by `1 / L`, which gives the weights,
    and `(∑ j, p j * v j) * (1 / L) = ∑ j, (p j * (1 / L)) * v j` gives the output.
  The extended reals are not a ring (the product does not distribute over sums at the infinities), which is why each
  step first names the real numbers involved and only then computes.
-/
import proofs.«414623_j25125558682349_3_alg».proof.Proof.Spec

noncomputable section

namespace Cert.Attention

open Idealize.ShloMosaic Idealize.ShloMosaic.ValueIdx

/-- The inclusion of the reals commutes with finite sums. -/
theorem coe_finset_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

section Rows

variable {ι κ : Type} [Fintype ι] [Fintype κ]

/-- On real rows the split scores are the real number `∑ d, q d * c * k d`: both residual products are sums of zeros. -/
theorem scoresSplit_coe (c : ℝ) (Q : ι → ℝ) (K : κ → ι → ℝ) (j : κ) :
    scoresSplit (c : EReal) (fun d => (Q d : EReal)) (fun j d => (K j d : EReal)) j
      = ((∑ d, Q d * c * K j d : ℝ) : EReal) := by
  unfold scoresSplit
  have h1 : ∀ d, ((Q d : EReal) * (c : EReal)) * (K j d : EReal) = ((Q d * c * K j d : ℝ) : EReal) := fun d => by
    rw [EReal.coe_mul, EReal.coe_mul]
  have h2 : ∀ d, ((Q d : EReal) * (c : EReal)) * ((K j d : EReal) - (K j d : EReal)) = 0 := fun d => by
    rw [← EReal.coe_sub, sub_self, EReal.coe_zero, mul_zero]
  have h3 : ∀ d, ((Q d : EReal) * (c : EReal) - (Q d : EReal) * (c : EReal)) * (K j d : EReal) = 0 := fun d => by
    rw [← EReal.coe_mul, ← EReal.coe_sub, sub_self, EReal.coe_zero, zero_mul]
  simp only [h1, h2, h3, Finset.sum_const_zero, add_zero, ← coe_finset_sum]

/-- On real rows the quotient scores are the real number `(∑ d, q d * k d) * (1 / D)`. -/
theorem scoresDiv_coe (D : ℝ) (hD : D ≠ 0) (Q : ι → ℝ) (K : κ → ι → ℝ) (j : κ) :
    scoresDiv (D : EReal) (fun d => (Q d : EReal)) (fun j d => (K j d : EReal)) j
      = (((∑ d, Q d * K j d) * (1 / D) : ℝ) : EReal) := by
  unfold scoresDiv
  rw [Ideal.div_coe hD]
  simp only [← EReal.coe_mul, ← coe_finset_sum]

/-- The two score forms agree on real rows when `c = 1 / D`. -/
theorem scoresSplit_eq_scoresDiv (D : ℝ) (hD : D ≠ 0) (Q : ι → ℝ) (K : κ → ι → ℝ) :
    scoresSplit ((1 / D : ℝ) : EReal) (fun d => (Q d : EReal)) (fun j d => (K j d : EReal))
      = scoresDiv (D : EReal) (fun d => (Q d : EReal)) (fun j d => (K j d : EReal)) := by
  funext j
  rw [scoresSplit_coe, scoresDiv_coe D hD, Finset.sum_mul]
  exact congrArg _ (Finset.sum_congr rfl fun d _ => by ring)

/-- The largest of finitely many, at least one, real numbers (folded from `-∞`) is a real number. -/
theorem fold_max_coe (s : Finset κ) (hs : s.Nonempty) (S : κ → ℝ) :
    ∃ M : ℝ, s.fold max (⊥ : EReal) (fun j => (S j : EReal)) = (M : EReal) := by
  classical
  induction s using Finset.induction_on with
  | empty => exact absurd hs Finset.not_nonempty_empty
  | insert a s ha ih =>
    rw [Finset.fold_insert ha]
    rcases s.eq_empty_or_nonempty with rfl | hne
    · exact ⟨S a, by rw [Finset.fold_empty]; exact max_eq_left bot_le⟩
    · obtain ⟨M, hM⟩ := ih hne
      exact ⟨max (S a) M, by rw [hM]; exact (EReal.coe_strictMono.monotone.map_max).symm⟩

variable [Nonempty κ]

/-- A real row's maximum is real. -/
theorem rowMax_coe (S : κ → ℝ) : ∃ M : ℝ, rowMax (fun j => (S j : EReal)) = (M : EReal) :=
  fold_max_coe Finset.univ Finset.univ_nonempty S

/-- On a real row, with `M` the row's maximum and `L` the sum of the shifted exponentials: every shifted exponential
    is the real `exp (S j - M)`, their sum is the real `L`, and `L` is positive. -/
theorem softmax_real (S : κ → ℝ) : ∃ (P : κ → ℝ) (L : ℝ), L ≠ 0
    ∧ (∀ j, expShift (fun j => (S j : EReal)) j = (P j : EReal))
    ∧ expSum (fun j => (S j : EReal)) = (L : EReal) := by
  obtain ⟨M, hM⟩ := rowMax_coe S
  have hP : ∀ j, expShift (fun j => (S j : EReal)) j = ((Real.exp (S j - M) : ℝ) : EReal) := fun j => by
    unfold expShift
    rw [hM, ← EReal.coe_sub]
    rfl
  refine ⟨fun j => Real.exp (S j - M), ∑ j, Real.exp (S j - M), ?_, hP, ?_⟩
  · exact (Finset.sum_pos (fun j _ => Real.exp_pos _) Finset.univ_nonempty).ne'
  · unfold expSum
    simp only [hP, ← coe_finset_sum]

/-- A weight on a real row: multiplying by the reciprocal of the sum is dividing by the sum. -/
theorem weightMul_eq_weightDiv (S : κ → ℝ) (j : κ) :
    weightMul (fun j => (S j : EReal)) j = weightDiv (fun j => (S j : EReal)) j := by
  obtain ⟨P, L, hL, hP, hSum⟩ := softmax_real S
  unfold weightMul weightDiv
  rw [hSum, Ideal.div_coe hL, Ideal.div_coe hL, one_mul]

/-- An output entry on a real row and a real value column: the reciprocal of the sum moves inside the combination. -/
theorem outMul_eq_outDiv (S : κ → ℝ) (V : κ → ℝ) :
    outMul (fun j => (S j : EReal)) (fun j => (V j : EReal)) = outDiv (fun j => (S j : EReal)) (fun j => (V j : EReal)) := by
  obtain ⟨P, L, hL, hP, hSum⟩ := softmax_real S
  unfold outMul outDiv weightDiv
  rw [hSum]
  simp only [hP, Ideal.div_coe hL, one_mul, ← EReal.coe_mul, ← coe_finset_sum]
  rw [Finset.sum_mul]
  exact congrArg _ (Finset.sum_congr rfl fun j _ => by ring)

end Rows

/-- `invD` is `1 / D`. -/
theorem invD_eq : invD = ((1 / (11863283 / 1048576 : ℝ) : ℝ) : EReal) := by
  unfold invD; norm_num

theorem scale_ne_zero : (11863283 / 1048576 : ℝ) ≠ 0 := by norm_num

instance : Nonempty (Fin 2048) := ⟨⟨0, by decide⟩⟩

/-- The scores of a row of real queries against real keys agree in both forms, and are real. -/
theorem scores_real (Q K : Sqkv.Idx → ℝ) (b : Fin 32) (i : Fin 2048) :
    ∃ S : Fin 2048 → ℝ,
      scoresSplit invD (qRow (fun x => (Q x : EReal)) b i) (kRows (fun x => (K x : EReal)) b) = (fun j => (S j : EReal))
      ∧ scoresDiv scaleD (qRow (fun x => (Q x : EReal)) b i) (kRows (fun x => (K x : EReal)) b) = (fun j => (S j : EReal)) := by
  refine ⟨fun j => (∑ d, Q (ix3 b i d) * K (ix3 b j d)) * (1 / (11863283 / 1048576 : ℝ)), ?_, ?_⟩
  · rw [invD_eq]
    exact (scoresSplit_eq_scoresDiv _ scale_ne_zero (fun d => Q (ix3 b i d)) (fun j d => K (ix3 b j d))).trans
      (funext fun j => scoresDiv_coe _ scale_ne_zero _ _ j)
  · exact funext fun j => scoresDiv_coe _ scale_ne_zero (fun d => Q (ix3 b i d)) (fun j d => K (ix3 b j d)) j

/-- Real-valued arrays: choose the real behind each entry. -/
theorem exists_real {s : Shape} (x : s.Idx → EReal) (hx : ∀ i, ∃ r : ℝ, x i = (r : EReal)) :
    ∃ X : s.Idx → ℝ, x = fun i => (X i : EReal) :=
  ⟨fun i => (hx i).choose, funext fun i => (hx i).choose_spec⟩

theorem weightsMul_eq_weightsDiv (q k : Sqkv.Idx → EReal) (hq : ∀ i, ∃ r : ℝ, q i = (r : EReal)) (hk : ∀ i, ∃ r : ℝ, k i = (r : EReal)) :
    weightsMul q k = weightsDiv q k := by
  obtain ⟨Q, rfl⟩ := exists_real q hq
  obtain ⟨K, rfl⟩ := exists_real k hk
  funext x
  obtain ⟨S, h1, h2⟩ := scores_real Q K (x 0) (x 1)
  unfold weightsMul weightsDiv
  rw [h1, h2]
  exact weightMul_eq_weightDiv S (x 2)

theorem outputMul_eq_outputDiv (q k v : Sqkv.Idx → EReal) (hq : ∀ i, ∃ r : ℝ, q i = (r : EReal)) (hk : ∀ i, ∃ r : ℝ, k i = (r : EReal))
    (hv : ∀ i, ∃ r : ℝ, v i = (r : EReal)) :
    outputMul q k v = outputDiv q k v := by
  obtain ⟨Q, rfl⟩ := exists_real q hq
  obtain ⟨K, rfl⟩ := exists_real k hk
  obtain ⟨V, rfl⟩ := exists_real v hv
  funext x
  obtain ⟨S, h1, h2⟩ := scores_real Q K (x 0) (x 1)
  unfold outputMul outputDiv
  rw [h1, h2]
  exact outMul_eq_outDiv S (fun j => V (ix3 (x 0) j (x 2)))

end Cert.Attention

end
-- ==== Proof.Finite.lean ====
/-
  Finiteness of the inputs. The precondition says of each of the three input arrays that every entry `x` has
  `|x| < +∞`, the three statements joined by `and` and each taken over all indices. On the extended reals
  `|x| = max x (-x)`, and `max x (-x) < ⊤` excludes both `x = ⊤` and `x = ⊥`; what is left is a real number.
-/
import proofs.«414623_j25125558682349_3_alg».proof.Defs
import proofs.«414623_j25125558682349_3_alg».proof.Proof.Gen.Pre_finite_inputs
import Idealize.ShloMosaic.Lib.ReduceAll

noncomputable section

namespace Cert.Attention.Finite

open Idealize.ShloMosaic

/-- The bit pattern of `+inf` denotes `⊤`. -/
theorem ofBits_pos_inf : Ideal.ofBits .f32 0x7F800000#32 = ⊤ := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +inf` coming out true says that `x` is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_pos_inf] at h'
  by_contra hn
  rw [decide_eq_false hn] at h'
  exact absurd h' (by decide)

/-- The result of a reduction over all axes has one index. -/
instance subsingleton_scalarIdx : Subsingleton Cert.Pre_finite_inputs.S_.Idx := ⟨fun a b => funext fun d => d.elim0⟩

theorem real_of_pre [hP : Cert.Pre_finite_inputs.Facts]
    (x0 x1 x2 : FVec Ideal Cert.Pre_finite_inputs.S32x2048x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  dsimp only [Cert.Pre_finite_inputs.fn, andi] at h0
  obtain ⟨h01, h2⟩ := IntOp.andi_eq_one.1 h0
  obtain ⟨h0, h1⟩ := IntOp.andi_eq_one.1 h01
  refine ⟨fun i => ?_, fun i => ?_, fun i => ?_⟩
  · exact real_of_cmp _ (Host.reduce_andi_all _ _ _ _ _ h0 i)
  · exact real_of_cmp _ (Host.reduce_andi_all _ _ _ _ _ h1 i)
  · exact real_of_cmp _ (Host.reduce_andi_all _ _ _ _ _ h2 i)

end Cert.Attention.Finite

end
-- ==== Proof.Consts.lean ====
/-
  The float constants the two programs spell, as the extended reals their bit patterns denote.
-/
import Idealize.ShloMosaic.PureOps.Ideal

noncomputable section

namespace Cert.Attention.Consts

open Idealize.ShloMosaic

/-- `11.3137083`, the divisor of the scores, denotes the rational `11863283 / 2^20`. -/
theorem ofBits_scale : Ideal.ofBits .f32 0x413504F3#32 = ((11863283 / 1048576 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

/-- `+0.0` denotes `0`. -/
theorem ofBits_zero : Ideal.ofBits .f32 0x00000000#32 = 0 := by
  simp [Ideal.ofBits, Ideal.ieee]

end Cert.Attention.Consts

end
-- ==== Proof.KernelRows.lean ====
/-
  The body's arithmetic on one block of 1024 query rows, read at an index.

  With `X = q * (1 / D)` the scaled query block [1024, 128] and `Y` the key block [2048, 128], the score matrix
  [1024, 2048] is the sum of three products contracted over the 128 columns: `X · Yᵀ`, `X · (Y - Y)ᵀ` and
  `(X - X) · Yᵀ` (a narrowing to bf16 is the identity at the ideal values, so the "low" parts of the split are the
  differences `x - x`). Entry `(r, j)` of it depends on row `r` of the query block and row `j` of the key block only:
  it is `scoresSplit (1 / D) (row r of q) (rows of k) j`. The shifted exponentials subtract row `r`'s largest score, the
  row sum adds row `r`'s exponentials, and so entry `(r, j)` of the weights block and entry `(r, e)` of the output block
  (the exponentials' product with the value block [2048, 128], contracted over the 2048 key rows, times the reciprocal
  of the row sum) are the product-form weight and output of that one row.
-/
import proofs.«414623_j25125558682349_3_alg».proof.Proof.Gen.KernelIdeal.Value
import proofs.«414623_j25125558682349_3_alg».proof.Proof.Spec
import proofs.«414623_j25125558682349_3_alg».proof.Proof.Consts
import Idealize.ShloMosaic.PureOps.Ideal.Laws
import Idealize.ShloMosaic.Lib.ValueIdx
import Idealize.ShloMosaic.Lib.Pipeline.Value

noncomputable section

namespace Cert.KernelIdeal.Rows

open Cert.KernelIdeal Cert.KernelIdeal.Gen Idealize.ShloMosaic Idealize.ShloMosaic.ValueIdx Cert.Attention

/-! ## The two contractions at an index -/

theorem lhs_qk_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_qk_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs_qk_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_qk_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The query-key product into a zero accumulator at `(r, j)`: row `r` of the left operand against row `j` of the
    right one, over the 128 columns. -/
theorem matmul_qk_apply (X : FVec Ideal S1024x128 .bf16) (Y : FVec Ideal S2048x128 .bf16) (r : Fin 1024) (j : Fin 2048) :
    matmul dot_S1024x128_S2048x128_S1024x2048_1_1_0_0_n_n none X Y (constant S1024x2048 .f32 0x00000000#32) (ix2 r j)
      = ∑ d : Fin 128, X (ix2 r d) * Y (ix2 j d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r j) ((ValueIdx.contrEquiv1 dot_S1024x128_S2048x128_S1024x2048_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S1024x128_S2048x128_S1024x2048_1_1_0_0_n_n.rhsIdx (ix2 r j) ((ValueIdx.contrEquiv1 dot_S1024x128_S2048x128_S1024x2048_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product with the value block into a zero accumulator at `(r, e)`: row `r` of the left operand against column
    `e` of the right one, over the 2048 key rows. -/
theorem matmul_pv_apply (X : FVec Ideal S1024x2048 .bf16) (Y : FVec Ideal S2048x128 .bf16) (r : Fin 1024) (e : Fin 128) :
    matmul dot_S1024x2048_S2048x128_S1024x128_1_0_0_1_n_n none X Y (constant S1024x128 .f32 0x00000000#32) (ix2 r e)
      = ∑ j : Fin 2048, X (ix2 r j) * Y (ix2 j e) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r e) ((ValueIdx.contrEquiv1 dot_S1024x2048_S2048x128_S1024x128_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x128_S1024x128_1_0_0_1_n_n.rhsIdx (ix2 r e) ((ValueIdx.contrEquiv1 dot_S1024x2048_S2048x128_S1024x128_1_0_0_1_n_n 2048 rfl rfl).symm k) = ix2 k e := funext fun a => Fin.ext (by
    match a with
    | ⟨0, _⟩ => exact (rhs_pv_0 _ _).trans hk
    | ⟨1, _⟩ => exact rhs_pv_1 _ _)
  rw [el, er]

/-! ## A row's reductions and the columns that carry them back -/

/-- Putting coordinate `k` back into the reduced index `r` of a reduction of [1024, 2048] over its columns gives `(r, k)`. -/
theorem lift_row (h : S1024x2048.Reduces [1] S1024) (r : Fin 1024) (k : Fin (S1024x2048.size 1)) :
    h.lift (ix1 r) k = ix2 r (⟨k.val, k.isLt⟩ : Fin 2048) := by
  funext c; apply Fin.ext
  fin_cases c <;> rfl

/-- The row maximum from `-∞` of a [1024, 2048] matrix, at row `r`. -/
theorem rowmax_apply (sc : FVec Ideal S1024x2048 .f32) (r : Fin 1024) :
    multiReduction .maximumf [1] S1024 sc 0xFF800000#32 reduces_S1024x2048_S1024 (.inl rfl) rfl (ix1 r)
      = rowMax (fun j : Fin 2048 => sc (ix2 r j)) := by
  refine (Ideal.multiReduction_maximumf_single sc 0xFF800000#32 reduces_S1024x2048_S1024 (.inl rfl) rfl (ix1 r)).trans ?_
  have hf : (sc ∘ reduces_S1024x2048_S1024.lift (ix1 r)) = fun k : Fin 2048 => sc (ix2 r k) :=
    funext fun k => congrArg sc (lift_row _ r k)
  show Finset.fold max (Ideal.ofBits .f32 0xFF800000#32) (sc ∘ reduces_S1024x2048_S1024.lift (ix1 r)) (Finset.univ : Finset (Fin 2048))
    = Finset.fold max (⊥ : EReal) (fun j : Fin 2048 => sc (ix2 r j)) Finset.univ
  rw [hf, Consts.ofBits_neg_inf]
  rfl

/-- The row sum of a [1024, 2048] matrix, at row `r`. -/
theorem rowsum_apply (p : FVec Ideal S1024x2048 .f32) (r : Fin 1024) :
    multiReduction .add [1] S1024 p 0x00000000#32 reduces_S1024x2048_S1024 (.inl rfl) rfl (ix1 r)
      = ∑ j : Fin 2048, p (ix2 r j) := by
  refine (Ideal.multiReduction_add_single p 0x00000000#32 reduces_S1024x2048_S1024 (.inl rfl) rfl (ix1 r)).trans ?_
  show ∑ k : Fin 2048, p (reduces_S1024x2048_S1024.lift (ix1 r) k) = _
  exact Finset.sum_congr rfl fun k _ => congrArg p (lift_row _ r k)

/-- A vector over the 1024 rows, recast as a column and broadcast along 2048 columns, reads its row's entry. -/
theorem col_bcast_2048 (w : FVec Ideal S1024 .f32) (r : Fin 1024) (j : Fin 2048) :
    broadcastTo S1024x2048 (shapeCast S1024x1 w shapeCasts_S1024_S1024x1) broadcasts_S1024x1_S1024x2048 (ix2 r j) = w (ix1 r) := by
  refine (broadcastTo_apply _ _ (ix2 r j) (ix2 r (0 : Fin 1)) (fun a => match a with
    | ⟨0, _⟩ => by show r.val = (if (1024 : Nat) = 1 then 0 else r.val); rw [if_neg (by decide)]
    | ⟨1, _⟩ => by show 0 = (if (1 : Nat) = 1 then 0 else j.val); rw [if_pos rfl])).trans ?_
  exact shapeCast_apply _ _ (ix2 r (0 : Fin 1)) (ix1 r) (by
    rw [Shape.rowMajor_val_one, Shape.rowMajor_val_two]; show r.val = r.val * 1 + 0; omega)

/-- A column over the 1024 rows broadcast along 128 columns reads its row's entry. -/
theorem col_bcast_128 (w : FVec Ideal S1024x1 .f32) (r : Fin 1024) (e : Fin 128) :
    broadcastTo S1024x128 w broadcasts_S1024x1_S1024x128 (ix2 r e) = w (ix2 r (0 : Fin 1)) :=
  broadcastTo_apply _ _ (ix2 r e) (ix2 r (0 : Fin 1)) (fun a => match a with
    | ⟨0, _⟩ => by show r.val = (if (1024 : Nat) = 1 then 0 else r.val); rw [if_neg (by decide)]
    | ⟨1, _⟩ => by show 0 = (if (1 : Nat) = 1 then 0 else e.val); rw [if_pos rfl])

/-! ## The score matrix and the shifted exponentials -/

/-- The three-pass split product of a scaled query block `X` and a key block `Y`. -/
def scoreMat (X : FVec Ideal S1024x128 .f32) (Y : FVec Ideal S2048x128 .f32) : FVec Ideal S1024x2048 .f32 :=
  addf (addf (matmul dot_S1024x128_S2048x128_S1024x2048_1_1_0_0_n_n none (truncf .bf16 X bitsLt_bf16_f32) (truncf .bf16 Y bitsLt_bf16_f32) (constant S1024x2048 .f32 0x00000000#32))
      (matmul dot_S1024x128_S2048x128_S1024x2048_1_1_0_0_n_n none (truncf .bf16 X bitsLt_bf16_f32) (truncf .bf16 (subf Y Y) bitsLt_bf16_f32) (constant S1024x2048 .f32 0x00000000#32)))
    (matmul dot_S1024x128_S2048x128_S1024x2048_1_1_0_0_n_n none (truncf .bf16 (subf X X) bitsLt_bf16_f32) (truncf .bf16 Y bitsLt_bf16_f32) (constant S1024x2048 .f32 0x00000000#32))

/-- Entry `(r, j)` of the split product: row `r` of `X` against row `j` of `Y`, with the two residual sums. -/
theorem scoreMat_apply (X : FVec Ideal S1024x128 .f32) (Y : FVec Ideal S2048x128 .f32) (r : Fin 1024) (j : Fin 2048) :
    scoreMat X Y (ix2 r j)
      = (∑ d : Fin 128, X (ix2 r d) * Y (ix2 j d) + ∑ d : Fin 128, X (ix2 r d) * (Y (ix2 j d) - Y (ix2 j d)))
        + ∑ d : Fin 128, (X (ix2 r d) - X (ix2 r d)) * Y (ix2 j d) := by
  unfold scoreMat
  show (matmul _ none _ _ _ (ix2 r j) + matmul _ none _ _ _ (ix2 r j)) + matmul _ none _ _ _ (ix2 r j) = _
  rw [matmul_qk_apply, matmul_qk_apply, matmul_qk_apply]
  rfl

/-- Each score less its row's largest, exponentiated. -/
def expRows (sc : FVec Ideal S1024x2048 .f32) : FVec Ideal S1024x2048 .f32 :=
  exp (subf sc (broadcastTo S1024x2048 (shapeCast S1024x1 (multiReduction .maximumf [1] S1024 sc 0xFF800000#32 reduces_S1024x2048_S1024 (.inl rfl) rfl) shapeCasts_S1024_S1024x1) broadcasts_S1024x1_S1024x2048))

theorem expRows_apply (sc : FVec Ideal S1024x2048 .f32) (r : Fin 1024) (j : Fin 2048) :
    expRows sc (ix2 r j) = expShift (fun j' : Fin 2048 => sc (ix2 r j')) j := by
  unfold expRows
  show Ideal.exp (sc (ix2 r j) - broadcastTo S1024x2048 _ _ (ix2 r j)) = _
  rw [col_bcast_2048, rowmax_apply]
  rfl

/-- The query block scaled by the named reciprocal, at `(r, d)`. -/
theorem scaled_apply (P0 : Vec Ideal S1x1024x128 .f32) (r : Fin 1024) (d : Fin 128) :
    (mulf (shapeCast S1024x128 P0 shapeCasts_S1x1024x128_S1024x128) (broadcast S1024x128 (Named.named κ "inv_scale" 0x3DB504F3#32)) : FVec Ideal S1024x128 .f32) (ix2 r d)
      = P0 (ix3 (0 : Fin 1) r d) * invD := by
  show (shapeCast S1024x128 P0 shapeCasts_S1x1024x128_S1024x128) (ix2 r d) * Named.named (F := Ideal) κ "inv_scale" (φ := .f32) 0x3DB504F3#32 = _
  rw [shapeCast_apply _ _ (ix2 r d) (ix3 (0 : Fin 1) r d) (by
      rw [Shape.rowMajor_val_three, Shape.rowMajor_val_two]; show (0 * 1024 + r.val) * 128 + d.val = r.val * 128 + d.val; omega),
    IdealRules.named_const.ideal_named_scalar κ "inv_scale" _ _ rfl]
  rfl

/-- A [1, 2048, 128] block recast to [2048, 128], at `(j, d)`. -/
theorem rows_apply (P : Vec Ideal S1x2048x128 .f32) (j : Fin 2048) (d : Fin 128) :
    (shapeCast S2048x128 P shapeCasts_S1x2048x128_S2048x128 : FVec Ideal S2048x128 .f32) (ix2 j d) = P (ix3 (0 : Fin 1) j d) :=
  shapeCast_apply _ _ (ix2 j d) (ix3 (0 : Fin 1) j d) (by
    rw [Shape.rowMajor_val_three, Shape.rowMajor_val_two]; show (0 * 2048 + j.val) * 128 + d.val = j.val * 128 + d.val; omega)

/-- The body's shifted exponentials are `expRows` of the split product of the scaled query block and the key block. -/
theorem k0_pay2_eq (P0 : Vec Ideal S1x1024x128 .f32) (P1 : Vec Ideal S1x2048x128 .f32) :
    k0_pay2 P0 P1 = expRows (scoreMat (mulf (shapeCast S1024x128 P0 shapeCasts_S1x1024x128_S1024x128) (broadcast S1024x128 (Named.named κ "inv_scale" 0x3DB504F3#32)))
      (shapeCast S2048x128 P1 shapeCasts_S1x2048x128_S2048x128)) := rfl

/-- Row `r` of the score matrix is the split scores of row `r` of the query block against the key block's rows. -/
theorem scores_row (P0 : Vec Ideal S1x1024x128 .f32) (P1 : Vec Ideal S1x2048x128 .f32) (r : Fin 1024) :
    (fun j' : Fin 2048 => scoreMat (mulf (shapeCast S1024x128 P0 shapeCasts_S1x1024x128_S1024x128) (broadcast S1024x128 (Named.named κ "inv_scale" 0x3DB504F3#32)))
        (shapeCast S2048x128 P1 shapeCasts_S1x2048x128_S2048x128) (ix2 r j'))
      = scoresSplit invD (fun d : Fin 128 => P0 (ix3 (0 : Fin 1) r d)) (fun (j : Fin 2048) (d : Fin 128) => P1 (ix3 (0 : Fin 1) j d)) := by
  funext j'
  rw [scoreMat_apply]
  unfold scoresSplit
  simp only [scaled_apply, rows_apply]

/-- Entry `(r, j)` of the shifted exponentials. -/
theorem pay2_at (P0 : Vec Ideal S1x1024x128 .f32) (P1 : Vec Ideal S1x2048x128 .f32) (r : Fin 1024) (j : Fin 2048) :
    k0_pay2 P0 P1 (ix2 r j)
      = expShift (scoresSplit invD (fun d : Fin 128 => P0 (ix3 (0 : Fin 1) r d)) (fun (j : Fin 2048) (d : Fin 128) => P1 (ix3 (0 : Fin 1) j d))) j := by
  rw [k0_pay2_eq, expRows_apply, scores_row]

/-- Row `r`'s sum of the shifted exponentials. -/
theorem sum_at (P0 : Vec Ideal S1x1024x128 .f32) (P1 : Vec Ideal S1x2048x128 .f32) (r : Fin 1024) :
    multiReduction .add [1] S1024 (k0_pay2 P0 P1) 0x00000000#32 reduces_S1024x2048_S1024 (.inl rfl) rfl (ix1 r)
      = expSum (scoresSplit invD (fun d : Fin 128 => P0 (ix3 (0 : Fin 1) r d)) (fun (j : Fin 2048) (d : Fin 128) => P1 (ix3 (0 : Fin 1) j d))) := by
  rw [rowsum_apply]
  unfold expSum
  exact Finset.sum_congr rfl fun j _ => pay2_at P0 P1 r j

/-! ## The two stored blocks at an index -/

/-- Entry `(0, r, j)` of the weights block: the product-form weight of query row `r` against key row `j`. -/
theorem weights_at_coords (P0 : Vec Ideal S1x1024x128 .f32) (P1 : Vec Ideal S1x2048x128 .f32) (r : Fin 1024) (j : Fin 2048) :
    Value.E4 P0 P1 (ix3 (0 : Fin 1) r j)
      = weightMul (scoresSplit invD (fun d : Fin 128 => P0 (ix3 (0 : Fin 1) r d))
          (fun (j : Fin 2048) (d : Fin 128) => P1 (ix3 (0 : Fin 1) j d))) j := by
  have e0 : Value.ix4_0 (ix3 (0 : Fin 1) r j) = ix2 r j := funext fun a => by match a with | ⟨0, _⟩ => rfl | ⟨1, _⟩ => rfl
  have e1 : Value.ix4_1 (ix3 (0 : Fin 1) r j) = ix1 r := funext fun a => by match a with | ⟨0, _⟩ => rfl
  show (k0_pay2 P0 P1) (Value.ix4_0 (ix3 (0 : Fin 1) r j)) * Ideal.div (Ideal.ofBits .f32 0x3F800000#32)
      ((multiReduction .add [1] S1024 (k0_pay2 P0 P1) 0x00000000#32 reduces_S1024x2048_S1024 (.inl rfl) rfl) (Value.ix4_1 (ix3 (0 : Fin 1) r j))) = _
  rw [e0, e1, pay2_at, sum_at, Consts.ofBits_one]
  rfl

/-- Entry `y` of the weights block: the product-form weight of query row `y 1` against key row `y 2`. -/
theorem weights_at (P0 : Vec Ideal S1x1024x128 .f32) (P1 : Vec Ideal S1x2048x128 .f32) (y : S1x1024x2048.Idx) :
    Value.E4 P0 P1 y
      = weightMul (scoresSplit invD (fun d : Fin 128 => P0 (ix3 (0 : Fin 1) (y 1) d))
          (fun (j : Fin 2048) (d : Fin 128) => P1 (ix3 (0 : Fin 1) j d))) (y 2) := by
  have h0 : (y 0).val < 1 := (y 0).isLt
  have hy : y = ix3 (0 : Fin 1) (⟨(y 1).val, (y 1).isLt⟩ : Fin 1024) (⟨(y 2).val, (y 2).isLt⟩ : Fin 2048) :=
    funext fun a => Fin.ext (by match a with | ⟨0, _⟩ => (show (y 0).val = 0; omega) | ⟨1, _⟩ => rfl | ⟨2, _⟩ => rfl)
  exact (congrArg (Value.E4 P0 P1) hy).trans (weights_at_coords P0 P1 ⟨(y 1).val, (y 1).isLt⟩ ⟨(y 2).val, (y 2).isLt⟩)

/-- The reciprocal of row `r`'s sum, as the body computes it into a column. -/
theorem inv_at (P0 : Vec Ideal S1x1024x128 .f32) (P1 : Vec Ideal S1x2048x128 .f32) (r : Fin 1024) :
    k0_pay3 P0 P1 (ix2 r (0 : Fin 1))
      = Ideal.div 1 (expSum (scoresSplit invD (fun d : Fin 128 => P0 (ix3 (0 : Fin 1) r d)) (fun (j : Fin 2048) (d : Fin 128) => P1 (ix3 (0 : Fin 1) j d)))) := by
  show Ideal.div (Ideal.ofBits .f32 0x3F800000#32) ((shapeCast S1024x1 (multiReduction .add [1] S1024 (k0_pay2 P0 P1) 0x00000000#32 reduces_S1024x2048_S1024 (.inl rfl) rfl) shapeCasts_S1024_S1024x1) (ix2 r (0 : Fin 1))) = _
  rw [shapeCast_apply _ _ (ix2 r (0 : Fin 1)) (ix1 r) (by
    rw [Shape.rowMajor_val_one, Shape.rowMajor_val_two]; show r.val = r.val * 1 + 0; omega), sum_at, Consts.ofBits_one]

/-- Entry `(0, r, e)` of the output block: the product-form output of query row `r` at value column `e`. -/
theorem out_at_coords (P0 : Vec Ideal S1x1024x128 .f32) (P1 P2 : Vec Ideal S1x2048x128 .f32) (r : Fin 1024) (e : Fin 128) :
    k0_pay4 P0 P1 P2 (ix3 (0 : Fin 1) r e)
      = outMul (scoresSplit invD (fun d : Fin 128 => P0 (ix3 (0 : Fin 1) r d))
          (fun (j : Fin 2048) (d : Fin 128) => P1 (ix3 (0 : Fin 1) j d)))
          (fun j : Fin 2048 => P2 (ix3 (0 : Fin 1) j e)) := by
  have hpay : k0_pay4 P0 P1 P2 = shapeCast S1x1024x128 (mulf (matmul dot_S1024x2048_S2048x128_S1024x128_1_0_0_1_n_n none (truncf .bf16 (k0_pay2 P0 P1) bitsLt_bf16_f32)
      (truncf .bf16 (shapeCast S2048x128 P2 shapeCasts_S1x2048x128_S2048x128) bitsLt_bf16_f32) (constant S1024x128 .f32 0x00000000#32))
      (broadcastTo S1024x128 (k0_pay3 P0 P1) broadcasts_S1024x1_S1024x128)) shapeCasts_S1024x128_S1x1024x128 := rfl
  rw [hpay, shapeCast_apply _ _ (ix3 (0 : Fin 1) r e) (ix2 r e) (by
    rw [Shape.rowMajor_val_two, Shape.rowMajor_val_three]
    show r.val * 128 + e.val = (0 * 1024 + r.val) * 128 + e.val; omega)]
  show matmul dot_S1024x2048_S2048x128_S1024x128_1_0_0_1_n_n none _ _ _ (ix2 r e) * broadcastTo S1024x128 (k0_pay3 P0 P1) broadcasts_S1024x1_S1024x128 (ix2 r e) = _
  rw [matmul_pv_apply, col_bcast_128, inv_at]
  unfold outMul
  refine congrArg (· * _) (Finset.sum_congr rfl fun j _ => ?_)
  show k0_pay2 P0 P1 (ix2 r j) * (shapeCast S2048x128 P2 shapeCasts_S1x2048x128_S2048x128) (ix2 j e) = _
  rw [pay2_at, rows_apply]

/-- Entry `y` of the output block: the product-form output of query row `y 1` at value column `y 2`. -/
theorem out_at (P0 : Vec Ideal S1x1024x128 .f32) (P1 P2 : Vec Ideal S1x2048x128 .f32) (y : S1x1024x128.Idx) :
    k0_pay4 P0 P1 P2 y
      = outMul (scoresSplit invD (fun d : Fin 128 => P0 (ix3 (0 : Fin 1) (y 1) d))
          (fun (j : Fin 2048) (d : Fin 128) => P1 (ix3 (0 : Fin 1) j d)))
          (fun j : Fin 2048 => P2 (ix3 (0 : Fin 1) j (y 2))) := by
  have h0 : (y 0).val < 1 := (y 0).isLt
  have hy : y = ix3 (0 : Fin 1) (⟨(y 1).val, (y 1).isLt⟩ : Fin 1024) (⟨(y 2).val, (y 2).isLt⟩ : Fin 128) :=
    funext fun a => Fin.ext (by match a with | ⟨0, _⟩ => (show (y 0).val = 0; omega) | ⟨1, _⟩ => rfl | ⟨2, _⟩ => rfl)
  exact (congrArg (k0_pay4 P0 P1 P2) hy).trans (out_at_coords P0 P1 P2 ⟨(y 1).val, (y 1).isLt⟩ ⟨(y 2).val, (y 2).isLt⟩)

end Cert.KernelIdeal.Rows

end
-- ==== Proof.KernelArrays.lean ====
/-
  The kernel's two output arrays as whole-array functions of its three argument arrays.

  The kernel runs over a grid of 32 × 2 points `(b, h)`. At the point `(b, h)` it is handed the query block — rows
  `1024 h … 1024 h + 1023` of batch `b`, of shape 1 × 1024 × 128 — and the whole key and value matrices of batch `b`
  (1 × 2048 × 128 each), and it writes back the same 1024 rows of batch `b` of the output (1 × 1024 × 128) and of the
  attention weights (1 × 1024 × 2048). A block is a box of its array: along every axis the array coordinate of a block
  index is the block's number on that axis times the block's extent plus the coordinate inside the block, so the block
  index `y` of an output block at `(b, h)` sits in the array at `(b, 1024 h + y 1, y 2)`.

  Entry `(y 1, y 2)` of the weights block is a function of row `y 1` of the query block and of all 2048 rows of the key
  block; entry `(y 1, y 2)` of the output block depends moreover on column `y 2` of the value block (module
  `KernelRows`). Read in the arrays these are query row `1024 h + y 1` of batch `b`, the key rows of batch `b` and value
  column `y 2` of batch `b`: exactly what `Cert.Attention.weightsMul` and `Cert.Attention.outputMul` read at the array
  index `(b, 1024 h + y 1, y 2)`. Hence every point writes back a block of ONE whole-array function; the blocks of the 64
  points tile each output array (the index `i` lies in the block of the point `(i 0, i 1 / 1024)`); and so after the run
  each output array IS that function of the argument arrays.
-/
import proofs.«414623_j25125558682349_3_alg».proof.Proof.Gen.KernelIdeal.Value
import proofs.«414623_j25125558682349_3_alg».proof.Proof.KernelRows

noncomputable section

namespace Cert.KernelIdeal.Arrays

open Cert.KernelIdeal Cert.KernelIdeal.Gen Idealize.ShloMosaic Idealize.ShloMosaic.TcCoe Idealize.SL.Sem Cert.Attention
open Idealize.ShloMosaic.ValueIdx
open Idealize.ShloMosaic.Pipeline (Dat)

section Blocks

variable (m : (ℓ : Loc nD τ sig) → Buf (Elt Ideal) ℓ)

/-- The body reads and writes each block whole: through the box at the offsets `(0, 0, 0)`. -/
theorem offsets_zero : (![0, 0, 0] : Fin 3 → Nat) = fun _ => 0 := funext fun a => by fin_cases a <;> rfl

/-! ## Which block each window holds at a grid point -/

/-- At every one of the 64 grid points: the output block and the weights block have the query block's numbers
    `(b, h, 0)` on the three axes; the key block and the value block are block `(b, 0, 0)` of their arrays; and
    `b < 32`, `h < 2`. -/
theorem block_numbers : ∀ t : Fin cfg0.N,
    win0_3.index t (0 : Fin 3) = win0_0.index t (0 : Fin 3) ∧ win0_3.index t (1 : Fin 3) = win0_0.index t (1 : Fin 3)
    ∧ win0_3.index t (2 : Fin 3) = 0
    ∧ win0_4.index t (0 : Fin 3) = win0_0.index t (0 : Fin 3) ∧ win0_4.index t (1 : Fin 3) = win0_0.index t (1 : Fin 3)
    ∧ win0_4.index t (2 : Fin 3) = 0
    ∧ win0_1.index t (0 : Fin 3) = win0_0.index t (0 : Fin 3) ∧ win0_1.index t (1 : Fin 3) = 0 ∧ win0_1.index t (2 : Fin 3) = 0
    ∧ win0_2.index t (0 : Fin 3) = win0_0.index t (0 : Fin 3) ∧ win0_2.index t (1 : Fin 3) = 0 ∧ win0_2.index t (2 : Fin 3) = 0
    ∧ win0_0.index t (0 : Fin 3) < 32 ∧ win0_0.index t (1 : Fin 3) < 2 ∧ win0_0.index t (2 : Fin 3) = 0 :=
  (by decide +kernel : ∀ t : Fin grid0.N, _)

/-- Every batch `b` and every half `h` of the query rows is some grid point's. -/
theorem block_numbers_onto : ∀ (b : Fin 32) (h : Fin 2), ∃ t : Fin cfg0.N, win0_0.index t = ![b.val, h.val, 0] :=
  (by decide +kernel : ∀ (b : Fin 32) (h : Fin 2), ∃ t : Fin grid0.N, win0_0.index t = ![b.val, h.val, 0])

/-- The query block at point `t`: 1024 query rows of one batch. -/
abbrev queryBlock (c : Dev nD) (t : Fin cfg0.N) : Vec Ideal S1x1024x128 .f32 := iblk m c 0 t
/-- The key block at point `t`: the 2048 key rows of that batch. -/
abbrev keyBlock (c : Dev nD) (t : Fin cfg0.N) : Vec Ideal S1x2048x128 .f32 := iblk m c 1 t
/-- The value block at point `t`: the 2048 value rows of that batch. -/
abbrev valueBlock (c : Dev nD) (t : Fin cfg0.N) : Vec Ideal S1x2048x128 .f32 := iblk m c 2 t

/-! ## An entry of a block is an entry of the whole-array function -/

/-- If row `y 1` of a query block `P0` is query row `i 1` of batch `i 0`, the rows of a key block `P1` are the key rows of
    batch `i 0`, and `y 2 = i 2`, then entry `y` of the weights block computed from `P0`, `P1` is the attention weight
    at the array index `i`. -/
theorem weights_entry (q k : Sqkv.Idx → EReal) (P0 : Vec Ideal S1x1024x128 .f32) (P1 : Vec Ideal S1x2048x128 .f32)
    (y : S1x1024x2048.Idx) (i : Swts.Idx)
    (hq : ∀ d : Fin 128, P0 (ix3 (0 : Fin 1) (y 1) d) = q (ix3 (i 0) (i 1) d))
    (hk : ∀ (j : Fin 2048) (d : Fin 128), P1 (ix3 (0 : Fin 1) j d) = k (ix3 (i 0) j d))
    (h2 : y 2 = i 2) :
    Value.E4 P0 P1 y = weightsMul q k i := by
  rw [Rows.weights_at]
  unfold weightsMul qRow kRows
  simp only [hq, hk, h2]

/-- Likewise for the output block, whose entry `y` reads moreover column `y 2` of the value block `P2`: if that column is
    value column `i 2` of batch `i 0`, the entry is the attention output at the array index `i`. -/
theorem output_entry (q k v : Sqkv.Idx → EReal) (P0 : Vec Ideal S1x1024x128 .f32) (P1 P2 : Vec Ideal S1x2048x128 .f32)
    (y : S1x1024x128.Idx) (i : Sqkv.Idx)
    (hq : ∀ d : Fin 128, P0 (ix3 (0 : Fin 1) (y 1) d) = q (ix3 (i 0) (i 1) d))
    (hk : ∀ (j : Fin 2048) (d : Fin 128), P1 (ix3 (0 : Fin 1) j d) = k (ix3 (i 0) j d))
    (hv : ∀ j : Fin 2048, P2 (ix3 (0 : Fin 1) j (y 2)) = v (ix3 (i 0) j (i 2))) :
    k0_pay4 P0 P1 P2 y = outputMul q k v i := by
  rw [Rows.out_at]
  unfold outputMul qRow kRows vCol
  simp only [hq, hk, hv]

/-! ## What a grid point writes back -/

/-- The weights block a point writes back is that point's block of the whole array of attention weights of the
    queries and keys as the kernel finds them: the block index `y` sits at `(b, 1024 h + y 1, y 2)`, row `y 1` of the
    query block is query row `1024 h + y 1` of batch `b`, and the key block is batch `b`'s keys. -/
theorem flushed_weights (c : Dev nD) (t : Fin cfg0.N) :
    (dats m 0 c).flushed 4 t
      = ((cfg0.win 4).blk t).view.read (Elt Ideal) (weightsMul (V m c main_arg0) (V m c main_arg1)) := by
  rw [Value.flushed4]
  unfold out0_4
  simp only [View.ld_unit_zero (S := S1x1024x128) offsets_zero, View.ld_unit_zero (S := S1x2048x128) offsets_zero]
  obtain ⟨e30, e31, e32, e40, e41, e42, e10, e11, e12, e20, e21, e22, b0, b1, e02⟩ := block_numbers t
  funext y
  show (View.canon [(⟨r0_2, k0_pay1 (k0_pay2 (queryBlock m c t) (keyBlock m c t)) (k0_pay3 (queryBlock m c t) (keyBlock m c t))⟩
      : View.Piece (Elt Ideal) S1x1024x2048 .f32)] : Vec Ideal S1x1024x2048 .f32) y
    = weightsMul (V m c main_arg0) (V m c main_arg1) (((cfg0.win 4).blk t).view.emb y)
  rw [Value.canon4_eq]
  have hy0 : (y 0).val < 1 := (y 0).isLt
  have hy1 : (y 1).val < 1024 := (y 1).isLt
  have hy2 : (y 2).val < 2048 := (y 2).isLt
  refine weights_entry _ _ _ _ y _ ?_ ?_ ?_
  · -- the query row: `(b, 1024 h + y 1, d)` on both sides
    intro d
    show V m c main_arg0 (((cfg0.win 0).blk t).view.emb (ix3 (0 : Fin 1) (y 1) d)) = V m c main_arg0 _
    congr 1
    funext a; apply Fin.ext
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 128 + 1 * d.val = d.val; omega
  · -- the key rows: `(b, j, d)` on both sides
    intro j d
    show V m c main_arg1 (((cfg0.win 1).blk t).view.emb (ix3 (0 : Fin 1) j d)) = V m c main_arg1 _
    congr 1
    funext a; apply Fin.ext
    match a with
    | ⟨0, _⟩ => show win0_1.index t (0 : Fin 3) * 1 + 1 * 0 = win0_4.index t (0 : Fin 3) * 1 + 1 * (y 0).val; omega
    | ⟨1, _⟩ => show win0_1.index t (1 : Fin 3) * 2048 + 1 * j.val = j.val; omega
    | ⟨2, _⟩ => show win0_1.index t (2 : Fin 3) * 128 + 1 * d.val = d.val; omega
  · -- the key the weight is for: the weights block spans all 2048 of them
    apply Fin.ext
    show (y 2).val = win0_4.index t (2 : Fin 3) * 2048 + 1 * (y 2).val
    omega

/-- The output block a point writes back is that point's block of the whole attention output of the queries, keys and
    values as the kernel finds them: as for the weights, and column `y 2` of the value block is value column `y 2` of
    batch `b`. -/
theorem flushed_output (c : Dev nD) (t : Fin cfg0.N) :
    (dats m 0 c).flushed 3 t
      = ((cfg0.win 3).blk t).view.read (Elt Ideal) (outputMul (V m c main_arg0) (V m c main_arg1) (V m c main_arg2)) := by
  rw [Value.flushed3]
  unfold out0_3
  rw [View.canon_unit_zero offsets_zero]
  simp only [View.ld_unit_zero (S := S1x1024x128) offsets_zero, View.ld_unit_zero (S := S1x2048x128) offsets_zero]
  obtain ⟨e30, e31, e32, e40, e41, e42, e10, e11, e12, e20, e21, e22, b0, b1, e02⟩ := block_numbers t
  funext y
  show k0_pay4 (queryBlock m c t) (keyBlock m c t) (valueBlock m c t) y
    = outputMul (V m c main_arg0) (V m c main_arg1) (V m c main_arg2) (((cfg0.win 3).blk t).view.emb y)
  have hy0 : (y 0).val < 1 := (y 0).isLt
  have hy1 : (y 1).val < 1024 := (y 1).isLt
  have hy2 : (y 2).val < 128 := (y 2).isLt
  refine output_entry _ _ _ _ _ _ y _ ?_ ?_ ?_
  · -- the query row: `(b, 1024 h + y 1, d)` on both sides
    intro d
    show V m c main_arg0 (((cfg0.win 0).blk t).view.emb (ix3 (0 : Fin 1) (y 1) d)) = V m c main_arg0 _
    congr 1
    funext a; apply Fin.ext
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 128 + 1 * d.val = d.val; omega
  · -- the key rows: `(b, j, d)` on both sides
    intro j d
    show V m c main_arg1 (((cfg0.win 1).blk t).view.emb (ix3 (0 : Fin 1) j d)) = V m c main_arg1 _
    congr 1
    funext a; apply Fin.ext
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 128 + 1 * d.val = d.val; omega
  · -- the value column: `(b, j, y 2)` on both sides
    intro j
    show V m c main_arg2 (((cfg0.win 2).blk t).view.emb (ix3 (0 : Fin 1) j (y 2))) = V m c main_arg2 _
    congr 1
    funext a; apply Fin.ext
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 128 + 1 * (y 2).val = win0_3.index t (2 : Fin 3) * 128 + 1 * (y 2).val; omega

/-! ## The blocks tile the arrays -/

/-- An index of the weights array is in point `t`'s block iff on every axis its coordinate is within the block's extent
    of the block's start. -/
theorem mem_weights_block (t : Fin cfg0.N) (i : S32x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v0_1).slice (win0_4.rect t)).set ↔ _
  rw [View.set_slice_whole, Rect.mem_set_unit]
  exact Iff.rfl

/-- The same for the output array. -/
theorem mem_output_block (t : Fin cfg0.N) (i : S32x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v0_0).slice (win0_3.rect t)).set ↔ _
  rw [View.set_slice_whole, Rect.mem_set_unit]
  exact Iff.rfl

/-- Every index `i` of the weights array is written back by some point: the one of batch `i 0` and half `i 1 / 1024`. -/
theorem weights_cover (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := block_numbers_onto ⟨(i 0).val, hi0⟩ ⟨(i 1).val / 1024, by omega⟩
  have q0 : win0_0.index t (0 : Fin 3) = (i 0).val := congrFun ht 0
  have q1 : win0_0.index t (1 : Fin 3) = (i 1).val / 1024 := congrFun ht 1
  obtain ⟨e30, e31, e32, e40, e41, e42, e10, e11, e12, e20, e21, e22, b0, b1, e02⟩ := block_numbers t
  refine ⟨t, flush0_4 t, ?_⟩
  rw [mem_weights_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Every index `i` of the output array is written back by some point: the one of batch `i 0` and half `i 1 / 1024`. -/
theorem output_cover (i : S32x2048x128.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  obtain ⟨t, ht⟩ := block_numbers_onto ⟨(i 0).val, hi0⟩ ⟨(i 1).val / 1024, by omega⟩
  have q0 : win0_0.index t (0 : Fin 3) = (i 0).val := congrFun ht 0
  have q1 : win0_0.index t (1 : Fin 3) = (i 1).val / 1024 := congrFun ht 1
  obtain ⟨e30, e31, e32, e40, e41, e42, e10, e11, e12, e20, e21, e22, b0, b1, e02⟩ := block_numbers t
  refine ⟨t, flush0_3 t, ?_⟩
  rw [mem_output_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-! ## The arrays after the run -/

/-- After the run the weights array is the attention weights of the queries and keys as the kernel finds them. -/
theorem final_weights (c : Dev nD) :
    (dats m 0 c).arrAt 4 cfg0.N = weightsMul (V m c main_arg0) (V m c main_arg1) :=
  (dats m 0 c).arrAt_eq_of_cover 4 _ (fun t _ => flushed_weights m c t) weights_cover

/-- After the run the output array is the attention output of the queries, keys and values as the kernel finds them. -/
theorem final_output (c : Dev nD) :
    (dats m 0 c).arrAt 3 cfg0.N = outputMul (V m c main_arg0) (V m c main_arg1) (V m c main_arg2) :=
  (dats m 0 c).arrAt_eq_of_cover 3 _ (fun t _ => flushed_output m c t) output_cover

end Blocks

/-- The kernel's run: the output array and the weights array hold the product-form attention output and weights of the
    argument arrays as launched, and the three argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0)
          = outputMul (m ((c : Thread nD τ).loc main_arg0)) (m ((c : Thread nD τ).loc main_arg1)) (m ((c : Thread nD τ).loc main_arg2))
      ∧ r.2.mem ((c : Thread nD τ).loc main_v0_1)
          = weightsMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => ⟨(h c).1.trans (final_output m c), (h c).2.1.trans (final_weights m c), (h c).2.2⟩)
    (Value.run_blocks m ρ)

end Cert.KernelIdeal.Arrays

end
-- ==== Proof.ReferenceArrays.lean ====
/-
  The reference program read as the specification's quotient form. Stage by stage: the scores are the dot product of a
  query row with a key row divided by the scale; the row maximum is the fold of `max` from `-∞` over the key index
  (taken once more against `-∞`, which changes nothing); the shifted exponentials, their sum from `0`, the quotient
  of the two, and the combination of the value rows with those quotients.
-/
import proofs.«414623_j25125558682349_3_alg».proof.Proof.Gen.ReferenceIdeal.Read
import proofs.«414623_j25125558682349_3_alg».proof.Proof.Spec
import proofs.«414623_j25125558682349_3_alg».proof.Proof.Consts

noncomputable section

namespace Cert.ReferenceIdeal.Arrays

open Cert.ReferenceIdeal Cert.ReferenceIdeal.Gen Idealize.ShloMosaic Idealize.ShloMosaic.ValueIdx Cert.Attention

/-- A rank-2 index `(b, i)` with the coordinate `k` put back on the last axis is `(b, i, k)`. -/
theorem lift_ix3 {n0 n1 n2 : Nat} (h : (⟨3, ![n0, n1, n2]⟩ : Shape).Reduces [2] (⟨2, ![n0, n1]⟩ : Shape))
    (b : Fin n0) (i : Fin n1) (k : Fin ((⟨3, ![n0, n1, n2]⟩ : Shape).size 2)) :
    h.lift (ix2 b i) k = ix3 b i (⟨k.val, k.isLt⟩ : Fin n2) := by
  funext c; apply Fin.ext
  fin_cases c <;> rfl

section Stages

variable (x0 x1 : (⟨S32x2048x128, .f32⟩ : BufTy).Contents (Elt Ideal))

/-- The scores: entry `(b, i, j)` is the dot product of query row `(b, i)` with key row `(b, j)`, over the scale. -/
theorem scores_apply (b : Fin 32) (i j : Fin 2048) :
    Read.val_main_v2 (F := Ideal) x0 x1 (ix3 b i j) = scoresDiv scaleD (qRow x0 b i) (kRows x1 b) j := by
  rw [Read.val_main_v2_apply, Read.val_main_v0_apply, Read.val_main_v1_apply, Read.val_main_cst_apply]
  rw [Ideal.hostDivf_def, Ideal.ofBits_def, Consts.ofBits_scale]
  unfold scoresDiv scaleD qRow kRows
  refine congrArg (Ideal.div · _) (Finset.sum_congr rfl fun d _ => ?_)
  have el : Read.lidx_main_v0 (ix3 b i j) d = ix3 b i d :=
    funext fun a => Fin.ext (by match a with | ⟨0, _⟩ => rfl | ⟨1, _⟩ => rfl | ⟨2, _⟩ => rfl)
  have er : Read.ridx_main_v0 (ix3 b i j) d = ix3 b j d :=
    funext fun a => Fin.ext (by match a with | ⟨0, _⟩ => rfl | ⟨1, _⟩ => rfl | ⟨2, _⟩ => rfl)
  rw [el, er]

/-- The row maximum: entry `(b, i)` is the largest score of that row. -/
theorem rowMax_apply (b : Fin 32) (i : Fin 2048) :
    Read.val_main_v5 (F := Ideal) x0 x1 (ix2 b i) = rowMax (scoresDiv scaleD (qRow x0 b i) (kRows x1 b)) := by
  rw [Read.val_main_v5_apply, Read.val_main_v4_apply, Read.val_main_cst_1_apply]
  unfold Read.val_main_v3
  have hR : S32x2048x2048.Reduces [2] S32x2048 := by decide
  rw [Host.reduce_eq_fold_single FloatOps.maximumf _ _ reducesTo_S32x2048x2048_S32x2048_d2 hR h_S_,
    Read.val_main_cst_0_apply, Ideal.ofBits_def, Consts.ofBits_neg_inf, Ideal.maximumf_def, max_eq_right bot_le]
  unfold rowMax
  have hf : (Read.val_main_v2 (F := Ideal) x0 x1 ∘ hR.lift (ix2 b i))
      = scoresDiv scaleD (qRow x0 b i) (kRows x1 b) := funext fun k => by
    show Read.val_main_v2 (F := Ideal) x0 x1 (hR.lift (ix2 b i) k) = _
    rw [lift_ix3, scores_apply]
    rfl
  rw [hf]
  rfl

/-- The shifted exponentials. -/
theorem expShift_apply (b : Fin 32) (i j : Fin 2048) :
    Read.val_main_v9 (F := Ideal) x0 x1 (ix3 b i j) = expShift (scoresDiv scaleD (qRow x0 b i) (kRows x1 b)) j := by
  rw [Read.val_main_v9_apply, Read.val_main_v8_apply, Read.val_main_v7_apply, Read.val_main_v6_apply]
  have e : Read.idx_main_v6 (Read.idx_main_v7 (ix3 b i j)) = ix2 b i :=
    funext fun a => Fin.ext (by match a with | ⟨0, _⟩ => rfl | ⟨1, _⟩ => rfl)
  rw [e, rowMax_apply, scores_apply, Ideal.hostUnary_exp_def, Ideal.subf_def]
  rfl

/-- The sum of a row's shifted exponentials. -/
theorem expSum_apply (b : Fin 32) (i : Fin 2048) :
    Read.val_main_v10 (F := Ideal) x0 x1 (ix2 b i) = expSum (scoresDiv scaleD (qRow x0 b i) (kRows x1 b)) := by
  rw [Read.val_main_v10_apply, Read.val_main_cst_2_apply, Ideal.ofBits_def, Consts.ofBits_zero, zero_add]
  unfold expSum
  refine Finset.sum_congr rfl fun k _ => ?_
  have e : Read.idx_main_v10 (ix2 b i) k = ix3 b i k :=
    funext fun a => Fin.ext (by match a with | ⟨0, _⟩ => rfl | ⟨1, _⟩ => rfl | ⟨2, _⟩ => rfl)
  rw [e, expShift_apply]

/-- The weights: the shifted exponential over the row's sum. -/
theorem weights_apply (b : Fin 32) (i j : Fin 2048) :
    Read.val_main_v13 (F := Ideal) x0 x1 (ix3 b i j) = weightDiv (scoresDiv scaleD (qRow x0 b i) (kRows x1 b)) j := by
  rw [Read.val_main_v13_apply, Read.val_main_v12_apply, Read.val_main_v11_apply]
  have e : Read.idx_main_v11 (Read.idx_main_v12 (ix3 b i j)) = ix2 b i :=
    funext fun a => Fin.ext (by match a with | ⟨0, _⟩ => rfl | ⟨1, _⟩ => rfl)
  rw [e, expSum_apply, expShift_apply, Ideal.hostDivf_def]
  rfl

end Stages

theorem weights_eq (x0 x1 : (⟨S32x2048x128, .f32⟩ : BufTy).Contents (Elt Ideal)) :
    Read.val_main_v13 (F := Ideal) x0 x1 = weightsDiv x0 x1 := by
  funext x
  obtain ⟨b, i, j, rfl⟩ : ∃ (b : Fin 32) (i j : Fin 2048), x = ix3 b i j := ⟨x 0, x 1, x 2, eq_ix3 x⟩
  exact weights_apply x0 x1 b i j

theorem output_eq (x0 x1 x2 : (⟨S32x2048x128, .f32⟩ : BufTy).Contents (Elt Ideal)) :
    Read.val_main_v14 (F := Ideal) x0 x1 x2 = outputDiv x0 x1 x2 := by
  funext x
  obtain ⟨b, i, e, rfl⟩ : ∃ (b : Fin 32) (i : Fin 2048) (e : Fin 128), x = ix3 b i e := ⟨x 0, x 1, x 2, eq_ix3 x⟩
  rw [Read.val_main_v14_apply]
  show _ = outDiv (scoresDiv scaleD (qRow x0 b i) (kRows x1 b)) (vCol x2 b e)
  unfold outDiv vCol
  refine Finset.sum_congr rfl fun k _ => ?_
  have el : Read.lidx_main_v14 (ix3 b i e) k = ix3 b i k :=
    funext fun a => Fin.ext (by match a with | ⟨0, _⟩ => rfl | ⟨1, _⟩ => rfl | ⟨2, _⟩ => rfl)
  have er : Read.ridx_main_v14 (ix3 b i e) k = ix3 b k e :=
    funext fun a => Fin.ext (by match a with | ⟨0, _⟩ => rfl | ⟨1, _⟩ => rfl | ⟨2, _⟩ => rfl)
  rw [el, er, weights_apply]

end Cert.ReferenceIdeal.Arrays

end
-- ==== Proof.lean ====
/-
  Scaled dot-product attention, f32[32, 2048, 128] queries, keys and values: a kernel that computes, per batch and per
  block of 1024 query rows, the scores as a three-pass split product of the query pre-multiplied by `1 / D`
  (`D` the f32 nearest to `√128`), the softmax weights as shifted exponentials times the reciprocal of their row sum, and
  the output as the exponentials' combination of the values times that reciprocal — against a reference that divides
  the plain dot products by `D`, divides the exponentials by their row sum, and combines the values with the weights.

  At the ideal values both programs compute one function of finite inputs (`Proof/Algebra.lean`): the kernel's result
  arrays are the product form of attention (`Proof/KernelArrays.lean` over `Proof/KernelRows.lean`), the reference's
  the quotient form (`Proof/ReferenceArrays.lean`), and finiteness of every entry is the precondition
  (`Proof/Finite.lean`). The three frames are the generated ones (the reference's is its generated run with the
  results dropped); the idealization's ledger has three entries: the named reciprocal `1 / D` and the two
  narrow-then-widen round trips, which are the identity at the ideal values.
-/
import proofs.«414623_j25125558682349_3_alg».proof.Defs
import proofs.«414623_j25125558682349_3_alg».proof.Proof.Gen.Kernel
import proofs.«414623_j25125558682349_3_alg».proof.Proof.Gen.Kernel.Frame
import proofs.«414623_j25125558682349_3_alg».proof.Proof.Gen.KernelIdeal
import proofs.«414623_j25125558682349_3_alg».proof.Proof.Gen.KernelIdeal.Frame
import proofs.«414623_j25125558682349_3_alg».proof.Proof.Gen.ReferenceIdeal
import proofs.«414623_j25125558682349_3_alg».proof.Proof.Gen.ReferenceIdeal.Run
import proofs.«414623_j25125558682349_3_alg».proof.Proof.Gen.ReferenceIdeal.Read
import proofs.«414623_j25125558682349_3_alg».proof.Proof.Gen.Pre_finite_inputs
import proofs.«414623_j25125558682349_3_alg».proof.Proof.Algebra
import proofs.«414623_j25125558682349_3_alg».proof.Proof.Finite
import proofs.«414623_j25125558682349_3_alg».proof.Proof.KernelArrays
import proofs.«414623_j25125558682349_3_alg».proof.Proof.ReferenceArrays
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger: the table gives the folded reciprocal the value `1 / D` (`D = 11863283 / 2^20`), and a bf16 round trip
    of an f32 vector is the identity at the ideal values. -/
theorem preserves : Cert.preserves_Kernel_KernelIdeal :=
  ⟨IdealRules.named_const.statement Cert.KernelIdeal.κ "inv_scale" .f32 0x3DB504F3#32 ((1048576 / 11863283 : ℝ) : EReal) rfl,
    IdealRules.truncf_extf.statement _ _ _, IdealRules.truncf_extf.statement _ _ _⟩

/-- From memories that agree on finite arguments the kernel ends at the product form of attention and the reference at
    the quotient form: one function. -/
theorem algebraic : Cert.algebraic_KernelIdeal_ReferenceIdeal := by
  intro m ρ m' ρ' hpre hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨h14, h13, ha0, ha1, ha2⟩ := h c
  obtain ⟨e0, e1, e2⟩ := hagree c
  obtain ⟨f0, f1, f2⟩ := Cert.Attention.Finite.real_of_pre _ _ _ (hpre c)
  refine ⟨?_, ?_, ha0, ha1, ha2⟩
  · rw [h14, Cert.ReferenceIdeal.Read.val_main_v14_eq, Cert.ReferenceIdeal.Arrays.output_eq, e0, e1, e2]
    exact (Cert.Attention.outputMul_eq_outputDiv _ _ _ f0 f1 f2).symm
  · rw [h13, Cert.ReferenceIdeal.Read.val_main_v13_eq, Cert.ReferenceIdeal.Arrays.weights_eq, e0, e1]
    exact (Cert.Attention.weightsMul_eq_weightsDiv _ _ f0 f1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
